-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S1x4096 : Shape := ⟨2, ![1, 4096]⟩
abbrev S1 : Shape := ⟨1, ![1]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S4096 .f32) (main_arg3 : FVec F S1x4096 .f32) (main_arg4 : FVec F S1 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1x4096 .f32 := Host.absf main_arg3
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_arg4 main_v13 main_v16
-- ==== Kernel.lean ====
abbrev S4096x1024 : Shape := ⟨2, ![4096, 1024]⟩
abbrev S4096 : Shape := ⟨1, ![4096]⟩
abbrev S1x4096 : Shape := ⟨2, ![1, 4096]⟩
abbrev S1 : Shape := ⟨1, ![1]⟩
abbrev S_ : Shape := ⟨0, ![]⟩
abbrev S4096x1 : Shape := ⟨2, ![4096, 1]⟩
abbrev S1024x1024 : Shape := ⟨2, ![1024, 1024]⟩
abbrev S512x1024 : Shape := ⟨2, ![512, 1024]⟩
abbrev S1024x1 : Shape := ⟨2, ![1024, 1]⟩
abbrev S1x512 : Shape := ⟨2, ![1, 512]⟩
abbrev S1024x512 : Shape := ⟨2, ![1024, 512]⟩
abbrev S1024 : Shape := ⟨1, ![1024]⟩
abbrev S1x1 : Shape := ⟨2, ![1, 1]⟩

abbrev nBuf : Space → Nat
  | .hbm => 18
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .f32⟩
  | .hbm, ⟨3, _⟩ => ⟨S1x4096, .f32⟩
  | .hbm, ⟨4, _⟩ => ⟨S1, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S1x4096, .f32⟩
  | .hbm, ⟨14, _⟩ => ⟨S4096x1, .f32⟩
  | .hbm, ⟨15, _⟩ => ⟨S1x1, .f32⟩
  | .hbm, ⟨16, _⟩ => ⟨S4096x1, .f32⟩
  | .hbm, ⟨17, _⟩ => ⟨S4096x1, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_22 : BitVec 32 := 0#32
  let v46 : BitVec 1 := Scalar.cmpi .ne v45 c0_i32_22
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  shapeCasts_S4096_S1x4096 : S4096.ShapeCasts S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  transposes_S512x1024_p1_0_S1024x512 : S512x1024.Transposes [1, 0] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  reduces_S1024x512_S1024 : S1024x512.Reduces [1] S1024
  shapeCasts_S1024_S1024x1 : S1024.ShapeCasts S1024x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4096.size a
  hwx0_5 : ∀ i : grid0.Coords, EltTy.bits .f32 = 32 ∨ (Rect.block (s := S1x4096) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S4096x1.size a
  hwx0_6 : ∀ i : grid0.Coords, EltTy.bits .f32 = 32 ∨ (Rect.block (s := S4096x1) S1024x1.size (cc0_transform_6 i) (hinb0_6 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S1x4096 : Shape := ⟨2, ![1, 4096]⟩
abbrev S1 : Shape := ⟨1, ![1]⟩
abbrev S_ : Shape := ⟨0, ![]⟩
abbrev S4096x1 : Shape := ⟨2, ![4096, 1]⟩
abbrev S4096x4096 : Shape := ⟨2, ![4096, 4096]⟩
abbrev S1024x4096 : Shape := ⟨2, ![1024, 4096]⟩
abbrev S1x1 : Shape := ⟨2, ![1, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .f32⟩
  | .hbm, ⟨3, _⟩ => ⟨S1x4096, .f32⟩
  | .hbm, ⟨4, _⟩ => ⟨S1, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S1024x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S1x4096, .f32⟩
  | .hbm, ⟨27, _⟩ => ⟨S1x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .i1⟩
  | .hbm, ⟨35, _⟩ => ⟨S_, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x1, .f32⟩
  | .hbm, ⟨40, _⟩ => ⟨S4096x1, .f32⟩
  | .hbm, ⟨41, _⟩ => ⟨S1x1, .f32⟩
  | .hbm, ⟨42, _⟩ => ⟨S4096x1, .f32⟩
  | .hbm, ⟨43, _⟩ => ⟨S4096x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_v22 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x1024_S1024x4096_1_0 : S4096x1024.Transposes [1, 0] S1024x4096
  bcast_S_S4096x4096 : S_.BroadcastsInDim S4096x4096 (![] : Fin 0 → Fin S4096x4096.rank)
  transposes_S1x4096_S4096x1_1_0 : S1x4096.Transposes [1, 0] S4096x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x1024_S1024x4096_S4096x4096_1_0_0_1_n_n_wf : DotDims.WF S4096x1024 S1024x4096 S4096x4096 [1] [0] [0] [1] [] []
  dot_S4096x4096_S4096x1_S4096x1_1_0_0_1_n_n_wf : DotDims.WF S4096x4096 S4096x1 S4096x1 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf

class Facts : Prop extends Facts₀ where

variable [Facts]
-- ==== Proof.Pieces.lean ====
/-
  What each control case of the kernel body leaves behind, as values.

  The body accumulates into a (1024, 1) scratch column that is carried from one grid point to the next. Writing
  P for the block's partial sums (the lane sum of the (1024, 512) product block) the three cases leave:
    first centre tile (k = 0):      scratch := 0 + P        (the zero column stored, read back, and added to)
    middle tiles (0 < k < 7):       scratch := previous + P
    last tile (k = 7):              scratch := previous + P, and the output block := that scratch.
  In the payload's names: k0_pay3 is the product block, k0_pay1 v a is a + (lane sum of v), k0_pay2 is the zero column.
-/
import proofs.«113046_j11081015623693_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- A middle centre tile adds its partial sums to the carried column. -/
theorem scratch_B (c : Dev nD) (i : grid0.Coords) (a2 : Memref sig .tc .vmem S1024x1024 .f32) (h2 : a2.IsWhole) (a3 : Memref sig .tc .vmem S512x1024 .f32) (h3 : a3.IsWhole) (a4 : Memref sig .tc .vmem S1024x1 .f32) (h4 : a4.IsWhole) (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S1024x1 .f32) (h8 : a8.IsWhole) (a9 : Memref sig .tc .vmem S1024x1 .f32) (h9 : a9.IsWhole) (hc0 : ¬cond0_0 i) (hc1 : ¬cond0_1 i) (x0 : Vec F S1024x1024 .f32) (x1 : Vec F S512x1024 .f32) (x2 : Vec F S1024x1 .f32) (x3 : Vec F S1x512 .f32) (x4 : Vec F S1x512 .f32) (x5 : Vec F S1x512 .f32) (xs0 : Vec F S1024x1 .f32) :
    sout0_B_0 c i a2 h2 a3 h3 a4 h4 a5 h5 a6 h6 a7 h7 a8 h8 a9 h9 hc0 hc1 x0 x1 x2 x3 x4 x5 xs0 = k0_pay1 (k0_pay3 x0 x1 x2 x3 x4 x5) xs0 := by
  unfold sout0_B_0
  rw [View.read_writes_eq_canon _ _ _ (scover0_B_0 c i a2 h2 a3 h3 a4 h4 a5 h5 a6 h6 a7 h7 a8 h8 a9 h9 hc0 hc1 x0 x1 x2 x3 x4 x5 xs0)]
  unfold kernelRun0_B
  dsimp only
  sl_unfold_words
  rw [View.canon_unit_zero hz]
  simp only [View.readAt_eq_ld, h2.read_unread, h3.read_unread, h4.read_unread, h5.read_unread, h6.read_unread, h7.read_unread, h9.read_unread, View.ld_unit_zero (S := S1024x1024) hz, View.ld_unit_zero (S := S512x1024) hz, View.ld_unit_zero (S := S1024x1) hz, View.ld_unit_zero (S := S1x512) hz]

/-- The first centre tile starts the column from the zero column. -/
theorem scratch_A (c : Dev nD) (i : grid0.Coords) (a2 : Memref sig .tc .vmem S1024x1024 .f32) (h2 : a2.IsWhole) (a3 : Memref sig .tc .vmem S512x1024 .f32) (h3 : a3.IsWhole) (a4 : Memref sig .tc .vmem S1024x1 .f32) (h4 : a4.IsWhole) (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S1024x1 .f32) (h8 : a8.IsWhole) (a9 : Memref sig .tc .vmem S1024x1 .f32) (h9 : a9.IsWhole) (hc0 : cond0_0 i) (hc1 : ¬cond0_1 i) (x0 : Vec F S1024x1024 .f32) (x1 : Vec F S512x1024 .f32) (x2 : Vec F S1024x1 .f32) (x3 : Vec F S1x512 .f32) (x4 : Vec F S1x512 .f32) (x5 : Vec F S1x512 .f32) :
    sout0_A_0 c i a2 h2 a3 h3 a4 h4 a5 h5 a6 h6 a7 h7 a8 h8 a9 h9 hc0 hc1 x0 x1 x2 x3 x4 x5 = k0_pay1 (k0_pay3 x0 x1 x2 x3 x4 x5) (k0_pay2 (F := F)) := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S1024x1) hz, View.readCov_unit_zero (S := S1024x1) _ hz]
  simp only [View.readAt_eq_ld, h2.read_unread, h3.read_unread, h4.read_unread, h5.read_unread, h6.read_unread, h7.read_unread, h9.read_unread, View.ld_unit_zero (S := S1024x1024) hz, View.ld_unit_zero (S := S512x1024) hz, View.ld_unit_zero (S := S1024x1) hz, View.ld_unit_zero (S := S1x512) hz]

/-- The last centre tile adds its partial sums to the carried column, -/
theorem scratch_C (c : Dev nD) (i : grid0.Coords) (a2 : Memref sig .tc .vmem S1024x1024 .f32) (h2 : a2.IsWhole) (a3 : Memref sig .tc .vmem S512x1024 .f32) (h3 : a3.IsWhole) (a4 : Memref sig .tc .vmem S1024x1 .f32) (h4 : a4.IsWhole) (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S1024x1 .f32) (h8 : a8.IsWhole) (a9 : Memref sig .tc .vmem S1024x1 .f32) (h9 : a9.IsWhole) (hc0 : ¬cond0_0 i) (hc1 : cond0_1 i) (x0 : Vec F S1024x1024 .f32) (x1 : Vec F S512x1024 .f32) (x2 : Vec F S1024x1 .f32) (x3 : Vec F S1x512 .f32) (x4 : Vec F S1x512 .f32) (x5 : Vec F S1x512 .f32) (xs0 : Vec F S1024x1 .f32) :
    sout0_C_0 c i a2 h2 a3 h3 a4 h4 a5 h5 a6 h6 a7 h7 a8 h8 a9 h9 hc0 hc1 x0 x1 x2 x3 x4 x5 xs0 = k0_pay1 (k0_pay3 x0 x1 x2 x3 x4 x5) xs0 := by
  unfold sout0_C_0
  rw [View.read_writes_eq_canon _ _ _ (scover0_C_0 c i a2 h2 a3 h3 a4 h4 a5 h5 a6 h6 a7 h7 a8 h8 a9 h9 hc0 hc1 x0 x1 x2 x3 x4 x5 xs0)]
  unfold kernelRun0_C
  dsimp only
  sl_unfold_words
  rw [View.canon_unit_zero hz]
  simp only [View.readAt_eq_ld, h2.read_unread, h3.read_unread, h4.read_unread, h5.read_unread, h6.read_unread, h7.read_unread, h9.read_unread, View.ld_unit_zero (S := S1024x1024) hz, View.ld_unit_zero (S := S512x1024) hz, View.ld_unit_zero (S := S1024x1) hz, View.ld_unit_zero (S := S1x512) hz]

/-- and stores that column as the output block. -/
theorem out_C (c : Dev nD) (i : grid0.Coords) (a2 : Memref sig .tc .vmem S1024x1024 .f32) (h2 : a2.IsWhole) (a3 : Memref sig .tc .vmem S512x1024 .f32) (h3 : a3.IsWhole) (a4 : Memref sig .tc .vmem S1024x1 .f32) (h4 : a4.IsWhole) (a5 : Memref sig .tc .vmem S1x512 .f32) (h5 : a5.IsWhole) (a6 : Memref sig .tc .vmem S1x512 .f32) (h6 : a6.IsWhole) (a7 : Memref sig .tc .vmem S1x512 .f32) (h7 : a7.IsWhole) (a8 : Memref sig .tc .vmem S1024x1 .f32) (h8 : a8.IsWhole) (a9 : Memref sig .tc .vmem S1024x1 .f32) (h9 : a9.IsWhole) (hc0 : ¬cond0_0 i) (hc1 : cond0_1 i) (x0 : Vec F S1024x1024 .f32) (x1 : Vec F S512x1024 .f32) (x2 : Vec F S1024x1 .f32) (x3 : Vec F S1x512 .f32) (x4 : Vec F S1x512 .f32) (x5 : Vec F S1x512 .f32) (xs0 : Vec F S1024x1 .f32) :
    out0_C_6 c i a2 h2 a3 h3 a4 h4 a5 h5 a6 h6 a7 h7 a8 h8 a9 h9 hc0 hc1 x0 x1 x2 x3 x4 x5 xs0 = k0_pay1 (k0_pay3 x0 x1 x2 x3 x4 x5) xs0 := by
  unfold out0_C_6
  rw [View.read_writes_eq_canon _ _ _ (cover0_C_6 c i a2 h2 a3 h3 a4 h4 a5 h5 a6 h6 a7 h7 a8 h8 a9 h9 hc0 hc1 x0 x1 x2 x3 x4 x5 xs0)]
  unfold kernelRun0_C
  dsimp only
  sl_unfold_words
  rw [View.canon_unit_zero hz, View.readCov_unit_zero (S := S1024x1) _ hz]
  simp only [View.readAt_eq_ld, h2.read_unread, h3.read_unread, h4.read_unread, h5.read_unread, h6.read_unread, h7.read_unread, h9.read_unread, View.ld_unit_zero (S := S1024x1024) hz, View.ld_unit_zero (S := S512x1024) hz, View.ld_unit_zero (S := S1024x1) hz, View.ld_unit_zero (S := S1x512) hz]

end Cert.KernelIdeal.Pieces

end
-- ==== Proof.Spec.lean ====
/-
  The mathematics both programs compute, stated once over the extended reals and over literal shapes.

  For a batch row b and a centre c:
    sqn a b      = 0 + sum over d of a[b,d]^2                      (a row's squared norm, summed from the zero)
    rowDot x y b c = sum over d of x[b,d] * y[c,d]
    resp         = keepFinite (exp ((0 - beta_c) * sqrt (max ((x2 + c2) - 2 * dot) 0))) * w_c
  and the network's output at row b is  (sum over the 4096 centres of resp) + bias.
  The kernel visits the centres in 8 blocks of 512 and adds the blocks' partial sums one after the other; on the
  extended reals addition is commutative and associative, so the blocked sum is the whole sum (sum_blocks).
-/
import Idealize.ShloMosaic.PureOps.Ideal.Laws
import Idealize.ShloMosaic.Lib.ValueIdx

noncomputable section

namespace Cert.RbfSpec

open Idealize.ShloMosaic Idealize.ShloMosaic.ValueIdx

abbrev SX : Shape := ⟨2, ![4096, 1024]⟩
abbrev SB : Shape := ⟨1, ![4096]⟩
abbrev SW : Shape := ⟨2, ![1, 4096]⟩
abbrev SOne : Shape := ⟨1, ![1]⟩
abbrev SO : Shape := ⟨2, ![4096, 1]⟩

/-- exp (-(beta) * distance), the distance the square root of the clamped squared distance
    x2 + c2 - 2 dot; the negation is written 0 - beta, as the kernel computes it. -/
def damp (x2 c2 dot β : EReal) : EReal :=
  Ideal.exp ((Ideal.ofBits .f32 0x00000000#32 - β)
    * Ideal.sqrt (max ((x2 + c2) - Ideal.ofBits .f32 0x40000000#32 * dot) (Ideal.ofBits .f32 0x00000000#32)))

/-- an infinite value is replaced by zero (|e| = +inf is the test). -/
def keepFinite (e : EReal) : EReal :=
  Scalar.select (Ideal.cmp .oeq (max e (-e)) (Ideal.ofBits .f32 0x7F800000#32)) (Ideal.ofBits .f32 0x00000000#32) e

/-- one centre's weighted response. -/
def resp (x2 c2 dot β w : EReal) : EReal := keepFinite (damp x2 c2 dot β) * w

/-- the same with the negation written as a negation, as the reference computes it. -/
theorem damp_neg (x2 c2 dot β : EReal) :
    Ideal.exp ((-β) * Ideal.sqrt (max ((x2 + c2) - Ideal.ofBits .f32 0x40000000#32 * dot) (Ideal.ofBits .f32 0x00000000#32)))
      = damp x2 c2 dot β := by
  unfold damp
  rw [Ideal.ofBits_zero_f32, zero_sub]

/-- a row's squared norm, summed from the zero. -/
def sqn (a : FVec Ideal SX .f32) (b : Fin 4096) : EReal :=
  Ideal.ofBits .f32 0x00000000#32 + ∑ d : Fin 1024, a (ix2 b d) * a (ix2 b d)

/-- the inner product of row b of x with row c of y. -/
def rowDot (x y : FVec Ideal SX .f32) (b c : Fin 4096) : EReal := ∑ d : Fin 1024, x (ix2 b d) * y (ix2 c d)

/-- centre c's weighted response to batch row b. -/
def term (x cen : FVec Ideal SX .f32) (beta : FVec Ideal SB .f32) (W : FVec Ideal SW .f32) (b c : Fin 4096) : EReal :=
  resp (sqn x b) (sqn cen c) (rowDot x cen b c) (beta (ix1 c)) (W (ix2 0 c))

/-- the output at batch row b. -/
def rowOut (x cen : FVec Ideal SX .f32) (beta : FVec Ideal SB .f32) (W : FVec Ideal SW .f32) (bias : FVec Ideal SOne .f32)
    (b : Fin 4096) : EReal :=
  (∑ c : Fin 4096, term x cen beta W b c) + bias (ix1 0)

/-- the whole result array. -/
def G (x cen : FVec Ideal SX .f32) (beta : FVec Ideal SB .f32) (W : FVec Ideal SW .f32) (bias : FVec Ideal SOne .f32) :
    FVec Ideal SO .f32 :=
  fun i => rowOut x cen beta W bias ⟨(i 0).val, idx2_lt0 i⟩

theorem G_ix2 (x cen : FVec Ideal SX .f32) (beta : FVec Ideal SB .f32) (W : FVec Ideal SW .f32) (bias : FVec Ideal SOne .f32)
    (b : Fin 4096) (z : Fin 1) : G x cen beta W bias (ix2 b z) = rowOut x cen beta W bias b := rfl

/-! ## Rows and columns of a block -/

/-- row r of batch tile i (tiles of 1024 rows). -/
def row (i : ℕ) (r : Fin 1024) : Fin 4096 := ⟨(1024 * i + r.val) % 4096, Nat.mod_lt _ (by decide)⟩
/-- column j of centre tile k (tiles of 512 centres). -/
def col (k : ℕ) (j : Fin 512) : Fin 4096 := ⟨(512 * k + j.val) % 4096, Nat.mod_lt _ (by decide)⟩

theorem row_val (i : ℕ) (hi : i < 4) (r : Fin 1024) : (row i r).val = 1024 * i + r.val := by
  show (1024 * i + r.val) % 4096 = _
  have := r.isLt
  omega
theorem col_val (k : ℕ) (hk : k < 8) (j : Fin 512) : (col k j).val = 512 * k + j.val := by
  show (512 * k + j.val) % 4096 = _
  have := j.isLt
  omega

/-- The eight blocks of 512 centres, summed block by block, are the sum over all 4096 centres. -/
theorem sum_blocks (T : Fin 4096 → EReal) :
    ∑ k ∈ Finset.range 8, ∑ j : Fin 512, T (col k j) = ∑ c : Fin 4096, T c := by
  rw [Finset.sum_range (fun k => ∑ j : Fin 512, T (col k j))]
  rw [← Fintype.sum_prod_type']
  have h := Equiv.sum_comp (finProdFinEquiv : Fin 8 × Fin 512 ≃ Fin (8 * 512)) (fun c : Fin (8 * 512) => T c)
  refine Eq.trans (Finset.sum_congr rfl fun p _ => ?_) h
  congr 1
  apply Fin.ext
  rw [col_val p.1.val p.1.isLt p.2]
  show _ = p.2.val + 512 * p.1.val
  omega

/-- The running sum over the first q + 1 blocks grows by one block. -/
theorem sum_blocks_succ (Q : ℕ → EReal) (q : ℕ) :
    ∑ k ∈ Finset.range (q + 1 + 1), Q k = (∑ k ∈ Finset.range (q + 1), Q k) + Q (q + 1) :=
  Finset.sum_range_succ Q (q + 1)

theorem sum_blocks_one (Q : ℕ → EReal) : ∑ k ∈ Finset.range (0 + 1), Q k = Ideal.ofBits .f32 0x00000000#32 + Q 0 := by
  rw [Ideal.ofBits_zero_f32, zero_add]
  simp

end Cert.RbfSpec

end
-- ==== Proof.Payload.lean ====
/-
  The kernel body's arithmetic, read at an index on the extended reals.

  Over the six blocks the body loads — xb (1024 rows of x), cb (512 rows of centres), x2 (the rows' squared norms,
  a column), c2, beta, w (the centres' squared norms, rates and weights, rows) —:
    the product block at (r, j) is the weighted response of centre j to row r:
        resp (x2 r) (c2 j) (sum over d of xb[r,d] * cb[j,d]) (beta j) (w j);
    the accumulator update at row r is  previous r + (sum over the block's 512 centres of the product block at (r, j));
    the reset column is zero.
  The two conversions to bf16 in front of the matrix product are the identity on the extended reals, and the
  transpose of the centres' block reads it at the swapped index.
-/
import proofs.«113046_j11081015623693_1_alg».proof.Proof.Gen.KernelIdeal.Skeleton
import proofs.«113046_j11081015623693_1_alg».proof.Proof.Spec
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.RbfSpec

/-! ## Two layout operations read at an index -/

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] vector cast to an [a, 1] column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem exp_apply {s : Shape} {φ : FTy} (a : FVec Ideal s φ) (i : s.Idx) : exp a i = Ideal.exp (a i) := rfl
theorem sqrt_apply {s : Shape} {φ : FTy} (a : FVec Ideal s φ) (i : s.Idx) : sqrt a i = Ideal.sqrt (a i) := rfl
theorem absf_apply {s : Shape} {φ : FTy} (a : FVec Ideal s φ) (i : s.Idx) : absf a i = max (a i) (-(a i)) := rfl

/-! ## The matrix product of the row block with the transposed centre block -/

theorem lhs_mm_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_mm_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_mm_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_mm_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product at (r, j) is the inner product of row r of the row block with row j of the centre block. -/
theorem mm_apply (lhs : FVec Ideal S1024x1024 .bf16) (rhs : FVec Ideal S1024x512 .bf16) (r : Fin 1024) (j : Fin 512) :
    matmul dot_S1024x1024_S1024x512_S1024x512_1_0_0_1_n_n none lhs rhs (constant S1024x512 .f32 0x00000000#32) (ix2 r j)
      = ∑ d : Fin 1024, lhs (ix2 r d) * rhs (ix2 d j) := by
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 r j) ((ValueIdx.contrEquiv1 dot_S1024x1024_S1024x512_S1024x512_1_0_0_1_n_n 1024 rfl rfl).symm k) = ix2 r k := funext fun a => Fin.ext (by
    match a with
    | ⟨0, _⟩ => exact lhs_mm_0 _ _
    | ⟨1, _⟩ => exact (lhs_mm_1 _ _).trans hk)
  have er : dot_S1024x1024_S1024x512_S1024x512_1_0_0_1_n_n.rhsIdx (ix2 r j) ((ValueIdx.contrEquiv1 dot_S1024x1024_S1024x512_S1024x512_1_0_0_1_n_n 1024 rfl rfl).symm k) = ix2 k j := funext fun a => Fin.ext (by
    match a with
    | ⟨0, _⟩ => exact (rhs_mm_0 _ _).trans hk
    | ⟨1, _⟩ => exact rhs_mm_1 _ _)
  rw [el, er]

/-- The transposed centre block (after its conversion to bf16, the identity here) reads the block at the swapped index. -/
theorem cbT_apply (cb : FVec Ideal S512x1024 .f32) (d : Fin 1024) (j : Fin 512) :
    (transpose S1024x512 [1, 0] (truncf (F := Ideal) .bf16 cb bitsLt_bf16_f32) transposes_S512x1024_p1_0_S1024x512 (ix2 d j) : EReal)
      = (cb (ix2 j d) : EReal) :=
  transpose_ix2_apply (a := 512) (b := 1024) (truncf (F := Ideal) .bf16 cb bitsLt_bf16_f32) transposes_S512x1024_p1_0_S1024x512 d j

/-- The body's matrix product at (r, j): the inner product of row r of the x block with row j of the centre block. -/
theorem prod_apply (xb : FVec Ideal S1024x1024 .f32) (cb : FVec Ideal S512x1024 .f32) (r : Fin 1024) (j : Fin 512) :
    (matmul (F := Ideal) dot_S1024x1024_S1024x512_S1024x512_1_0_0_1_n_n none (truncf (F := Ideal) .bf16 xb bitsLt_bf16_f32)
        (transpose S1024x512 [1, 0] (truncf (F := Ideal) .bf16 cb bitsLt_bf16_f32) transposes_S512x1024_p1_0_S1024x512)
        (constant (F := Ideal) S1024x512 .f32 0x00000000#32) (ix2 r j) : EReal)
      = ∑ d : Fin 1024, (xb (ix2 r d) : EReal) * (cb (ix2 j d) : EReal) := by
  refine (mm_apply _ _ r j).trans (Finset.sum_congr rfl fun d _ => ?_)
  exact congrArg (fun y : EReal => (xb (ix2 r d) : EReal) * y) (cbT_apply cb d j)

/-! ## The payloads -/

/-- The product block at (r, j): centre j's weighted response to row r, from the six loaded blocks. -/
theorem pay3_apply (xb : Vec Ideal S1024x1024 .f32) (cb : Vec Ideal S512x1024 .f32) (x2 : Vec Ideal S1024x1 .f32)
    (c2 beta w : Vec Ideal S1x512 .f32) (r : Fin 1024) (j : Fin 512) :
    k0_pay3 (F := Ideal) xb cb x2 c2 beta w (ix2 r j)
      = resp (x2 (ix2 r 0)) (c2 (ix2 0 j)) (∑ d : Fin 1024, xb (ix2 r d) * cb (ix2 j d)) (beta (ix2 0 j)) (w (ix2 0 j)) := by
  have key := prod_apply xb cb r j
  have hx2 : broadcastTo S1024x512 x2 broadcasts_S1024x1_S1024x512 (ix2 r j) = x2 (ix2 r 0) :=
    broadcastTo_a1_ab_apply x2 broadcasts_S1024x1_S1024x512 r j
  have hc2 : broadcastTo S1024x512 c2 broadcasts_S1x512_S1024x512 (ix2 r j) = c2 (ix2 0 j) :=
    broadcastTo_1b_ab_apply c2 broadcasts_S1x512_S1024x512 r j
  have hbeta : broadcastTo S1024x512 (subf (broadcast S1x512 (Scalar.ofBits (F := Ideal) .f32 0x00000000#32)) beta)
      broadcasts_S1x512_S1024x512 (ix2 r j) = Ideal.ofBits .f32 0x00000000#32 - beta (ix2 0 j) :=
    broadcastTo_1b_ab_apply (subf (broadcast S1x512 (Scalar.ofBits (F := Ideal) .f32 0x00000000#32)) beta)
      broadcasts_S1x512_S1024x512 r j
  have hw : broadcastTo S1024x512 w broadcasts_S1x512_S1024x512 (ix2 r j) = w (ix2 0 j) :=
    broadcastTo_1b_ab_apply w broadcasts_S1x512_S1024x512 r j
  unfold resp keepFinite damp
  rw [← key, ← hx2, ← hc2, ← hbeta, ← hw]
  unfold k0_pay3
  dsimp only
  simp only [shapeCast_self]
  rfl

/-- The accumulator update at row r: the previous value plus the block's 512 products. -/
theorem pay1_apply (v : FVec Ideal S1024x512 .f32) (acc : Vec Ideal S1024x1 .f32) (r : Fin 1024) (z : Fin 1) :
    k0_pay1 (F := Ideal) v acc (ix2 r z) = acc (ix2 r z) + ∑ j : Fin 512, v (ix2 r j) := by
  unfold k0_pay1
  dsimp only
  rw [shapeCast_self]
  show acc (ix2 r z) + shapeCast S1024x1 (multiReduction .add [1] S1024 v 0x00000000#32 reduces_S1024x512_S1024 (.inl rfl) rfl)
    shapeCasts_S1024_S1024x1 (ix2 r z) = _
  rw [shapeCast_a_a1_apply]
  refine congrArg (acc (ix2 r z) + ·) ?_
  refine (Ideal.multiReduction_add_single v 0x00000000#32 reduces_S1024x512_S1024 (.inl rfl) rfl (ix1 r)).trans ?_
  refine Finset.sum_congr rfl fun k _ => congrArg v (funext fun a => Fin.ext ?_)
  match a with
  | ⟨0, _⟩ => rfl
  | ⟨1, _⟩ => rfl

/-- The reset column is zero. -/
theorem pay2_apply (i : S1024x1.Idx) : k0_pay2 (F := Ideal) i = Ideal.ofBits .f32 0x00000000#32 := by
  unfold k0_pay2
  rw [shapeCast_self]
  rfl

end Cert.KernelIdeal.Payload

end
-- ==== Proof.Blocks.lean ====
/-
  What the six input blocks hold at a grid point, in terms of the argument arrays.

  The grid is 4 batch tiles by 8 centre tiles; point t is batch tile t / 8 and centre tile t % 8. At point t
    window 0 holds rows 1024 (t/8) .. of x,            window 1 rows 512 (t%8) .. of centres,
    window 2 the same rows of the column of squared norms of x's rows,
    windows 3, 4, 5 columns 512 (t%8) .. of the rows c2 (the centres' squared norms), beta and W.
  The column x2 and the rows c2 and beta are made by the host operations in front of the call: x2 is the row sums of
  x * x kept as a column, c2 the row sums of centres * centres laid out as a row, beta the rates laid out as a row.
-/
import proofs.«113046_j11081015623693_1_alg».proof.Proof.Gen.KernelIdeal.Frame
import proofs.«113046_j11081015623693_1_alg».proof.Proof.Spec
import Idealize.ShloMosaic.Lib.Pipeline.Value
import Idealize.ShloMosaic.Lib.StableHlo.Run
import Idealize.ShloMosaic.Lib.ValueLayout
import Idealize.ShloMosaic.PureOps.Ideal.Laws

noncomputable section

namespace Cert.KernelIdeal.Blocks

open Cert.KernelIdeal Cert.KernelIdeal.Gen
open Idealize.ShloMosaic Idealize.ShloMosaic.TcCoe Idealize.SL.Sem Idealize.ShloMosaic.ValueIdx Cert.RbfSpec
open Idealize.ShloMosaic.StableHlo

variable (m : (ℓ : Loc nD τ sig) → Buf (Elt Ideal) ℓ)

/-! ## The argument arrays and the blocks, at their literal types -/

abbrev xArr (c : Dev nD) : FVec Ideal S4096x1024 .f32 := m ((c : Thread nD τ).loc main_arg0)
abbrev cenArr (c : Dev nD) : FVec Ideal S4096x1024 .f32 := m ((c : Thread nD τ).loc main_arg1)
abbrev betaArr (c : Dev nD) : FVec Ideal S4096 .f32 := m ((c : Thread nD τ).loc main_arg2)
abbrev wArr (c : Dev nD) : FVec Ideal S1x4096 .f32 := m ((c : Thread nD τ).loc main_arg3)
abbrev biasArr (c : Dev nD) : FVec Ideal S1 .f32 := m ((c : Thread nD τ).loc main_arg4)

abbrev xblk (c : Dev nD) (t : Fin cfg0.N) : Vec Ideal S1024x1024 .f32 := iblk m c 0 t
abbrev cblk (c : Dev nD) (t : Fin cfg0.N) : Vec Ideal S512x1024 .f32 := iblk m c 1 t
abbrev x2blk (c : Dev nD) (t : Fin cfg0.N) : Vec Ideal S1024x1 .f32 := iblk m c 2 t
abbrev c2blk (c : Dev nD) (t : Fin cfg0.N) : Vec Ideal S1x512 .f32 := iblk m c 3 t
abbrev bblk (c : Dev nD) (t : Fin cfg0.N) : Vec Ideal S1x512 .f32 := iblk m c 4 t
abbrev wblk (c : Dev nD) (t : Fin cfg0.N) : Vec Ideal S1x512 .f32 := iblk m c 5 t

/-- The printed index maps, decided over the grid: batch tile t / 8, centre tile t % 8. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = 0 ∧ win0_4.index t (1 : Fin 2) = t.val % 8
    ∧ win0_5.index t (0 : Fin 2) = 0 ∧ win0_5.index t (1 : Fin 2) = t.val % 8
    ∧ win0_6.index t (0 : Fin 2) = t.val / 8 ∧ win0_6.index t (1 : Fin 2) = 0 :=
  (by decide +kernel : ∀ t : Fin grid0.N, _)

theorem t_lt (t : Fin cfg0.N) : t.val < 32 := lt_of_lt_of_eq t.isLt (show cfg0.N = 32 from N_0)

/-! ## The host operations in front of the call -/

/-- The column of squared norms of x's rows. -/
theorem V_x2 (c : Dev nD) : V m c main_v2
    = broadcastInDim S4096x1 ![0] bcast_S4096_S4096x1_0
        (Host.reduceAdd (mulf (xArr m c) (xArr m c)) (constant (F := Ideal) S_ .f32 0x00000000#32) reducesTo_S4096x1024_S4096_d1 h_S_) := by
  show StableHlo.after hostOps0 (fun b => m (c, b)) (Proc.devRef .tc main_v2) = _
  after_results

/-- The row of squared norms of the centres. -/
theorem V_c2 (c : Dev nD) : V m c main_v5
    = shapeCast S1x4096
        (Host.reduceAdd (mulf (cenArr m c) (cenArr m c)) (constant (F := Ideal) S_ .f32 0x00000000#32) reducesTo_S4096x1024_S4096_d1 h_S_)
        shapeCasts_S4096_S1x4096 := by
  show StableHlo.after hostOps0 (fun b => m (c, b)) (Proc.devRef .tc main_v5) = _
  after_results
  rfl

/-- The rates as a row. -/
theorem V_beta (c : Dev nD) : V m c main_v6 = shapeCast S1x4096 (betaArr m c) shapeCasts_S4096_S1x4096 := by
  show StableHlo.after hostOps0 (fun b => m (c, b)) (Proc.devRef .tc main_v6) = _
  after_results
  rfl

/-- A row sum of a * a from the zero, read at row b. -/
theorem rowsum_sq (a : FVec Ideal S4096x1024 .f32) (b : Fin 4096) :
    Host.reduceAdd (mulf a a) (constant (F := Ideal) S_ .f32 0x00000000#32) reducesTo_S4096x1024_S4096_d1 h_S_ (ix1 b) = sqn a b := by
  simp only [Host.reduceAdd, Ideal.hostReduceAdd_def]
  rw [Ideal.hostReduceAdd_single reducesTo_S4096x1024_S4096_d1 (by decide)]
  unfold sqn
  refine congrArg₂ (· + ·) rfl (Finset.sum_congr rfl fun d _ => ?_)
  exact congrArg (fun i => a i * a i) (funext fun ax => Fin.ext (by match ax with | ⟨0, _⟩ => rfl | ⟨1, _⟩ => rfl))

theorem x2_at (c : Dev nD) (b : Fin 4096) (z : Fin 1) : V m c main_v2 (ix2 b z) = sqn (xArr m c) b := by
  rw [V_x2]
  refine (broadcastInDim_apply _ bcast_S4096_S4096x1_0 _ (ix2 b z) (ix1 b) (fun a => match a with
    | ⟨0, _⟩ => by show b.val = if (4096 : Nat) = 1 then 0 else b.val; rw [if_neg (by decide)])).trans ?_
  exact rowsum_sq (xArr m c) b

theorem c2_at (c : Dev nD) (z : Fin 1) (k : Fin 4096) : V m c main_v5 (ix2 z k) = sqn (cenArr m c) k := by
  rw [V_c2, shapeCast_a_1a_apply]
  exact rowsum_sq (cenArr m c) k

theorem beta_at (c : Dev nD) (z : Fin 1) (k : Fin 4096) : V m c main_v6 (ix2 z k) = betaArr m c (ix1 k) := by
  rw [V_beta, shapeCast_a_1a_apply]

/-! ## The blocks read at an index -/

/-- Row r of the x block at point t is row (t / 8, r) of x. -/
theorem xblk_apply (c : Dev nD) (t : Fin cfg0.N) (r d : Fin 1024) :
    xblk m c t (ix2 r d) = xArr m c (ix2 (row (t.val / 8) r) d) := by
  have hN := t_lt t
  obtain ⟨e0, e1, -⟩ := idx_facts t
  show ((cfg0.win 0).blk t).view.read (Elt Ideal) (V m c (Pipeline.arrRef spec0 0)) (ix2 r d) = _
  rw [View.read_apply]
  show V m c main_arg0 (((cfg0.win 0).blk t).view.emb (ix2 r d)) = _
  rw [V_main_arg0]
  refine congrArg (m ((c : Thread nD τ).loc main_arg0)) (funext fun a => Fin.ext ?_)
  match a with
  | ⟨0, _⟩ =>
    show win0_0.index t (0 : Fin 2) * 1024 + 1 * r.val = (row (t.val / 8) r).val
    rw [e0, row_val _ (by omega)]; omega
  | ⟨1, _⟩ =>
    show win0_0.index t (1 : Fin 2) * 1024 + 1 * d.val = d.val
    rw [e1]; omega

/-- Row j of the centres block at point t is row (t % 8, j) of centres. -/
theorem cblk_apply (c : Dev nD) (t : Fin cfg0.N) (j : Fin 512) (d : Fin 1024) :
    cblk m c t (ix2 j d) = cenArr m c (ix2 (col (t.val % 8) j) d) := by
  have hN := t_lt t
  obtain ⟨-, -, e0, e1, -⟩ := idx_facts t
  show ((cfg0.win 1).blk t).view.read (Elt Ideal) (V m c (Pipeline.arrRef spec0 1)) (ix2 j d) = _
  rw [View.read_apply]
  show V m c main_arg1 (((cfg0.win 1).blk t).view.emb (ix2 j d)) = _
  rw [V_main_arg1]
  refine congrArg (m ((c : Thread nD τ).loc main_arg1)) (funext fun a => Fin.ext ?_)
  match a with
  | ⟨0, _⟩ =>
    show win0_1.index t (0 : Fin 2) * 512 + 1 * j.val = (col (t.val % 8) j).val
    rw [e0, col_val _ (by omega)]; omega
  | ⟨1, _⟩ =>
    show win0_1.index t (1 : Fin 2) * 1024 + 1 * d.val = d.val
    rw [e1]; omega

/-- The squared-norm column's block at point t: the squared norm of row (t / 8, r) of x. -/
theorem x2blk_apply (c : Dev nD) (t : Fin cfg0.N) (r : Fin 1024) (z : Fin 1) :
    x2blk m c t (ix2 r z) = sqn (xArr m c) (row (t.val / 8) r) := by
  have hN := t_lt t
  obtain ⟨-, -, -, -, e0, e1, -⟩ := idx_facts t
  show ((cfg0.win 2).blk t).view.read (Elt Ideal) (V m c (Pipeline.arrRef spec0 2)) (ix2 r z) = _
  rw [View.read_apply]
  show V m c main_v2 (((cfg0.win 2).blk t).view.emb (ix2 r z)) = _
  rw [← x2_at m c (row (t.val / 8) r) z]
  refine congrArg (V m c main_v2) (funext fun a => Fin.ext ?_)
  match a with
  | ⟨0, _⟩ =>
    show win0_2.index t (0 : Fin 2) * 1024 + 1 * r.val = (row (t.val / 8) r).val
    rw [e0, row_val _ (by omega)]; omega
  | ⟨1, _⟩ =>
    show win0_2.index t (1 : Fin 2) * 1 + 1 * z.val = z.val
    rw [e1]; omega

/-- The centres' squared norms at point t: the squared norm of row (t % 8, j) of centres. -/
theorem c2blk_apply (c : Dev nD) (t : Fin cfg0.N) (z : Fin 1) (j : Fin 512) :
    c2blk m c t (ix2 z j) = sqn (cenArr m c) (col (t.val % 8) j) := by
  have hN := t_lt t
  obtain ⟨-, -, -, -, -, -, e0, e1, -⟩ := idx_facts t
  show ((cfg0.win 3).blk t).view.read (Elt Ideal) (V m c (Pipeline.arrRef spec0 3)) (ix2 z j) = _
  rw [View.read_apply]
  show V m c main_v5 (((cfg0.win 3).blk t).view.emb (ix2 z j)) = _
  rw [← c2_at m c z (col (t.val % 8) j)]
  refine congrArg (V m c main_v5) (funext fun a => Fin.ext ?_)
  match a with
  | ⟨0, _⟩ =>
    show win0_3.index t (0 : Fin 2) * 1 + 1 * z.val = z.val
    rw [e0]; omega
  | ⟨1, _⟩ =>
    show win0_3.index t (1 : Fin 2) * 512 + 1 * j.val = (col (t.val % 8) j).val
    rw [e1, col_val _ (by omega)]; omega

/-- The rates at point t. -/
theorem bblk_apply (c : Dev nD) (t : Fin cfg0.N) (z : Fin 1) (j : Fin 512) :
    bblk m c t (ix2 z j) = betaArr m c (ix1 (col (t.val % 8) j)) := by
  have hN := t_lt t
  obtain ⟨-, -, -, -, -, -, -, -, e0, e1, -⟩ := idx_facts t
  show ((cfg0.win 4).blk t).view.read (Elt Ideal) (V m c (Pipeline.arrRef spec0 4)) (ix2 z j) = _
  rw [View.read_apply]
  show V m c main_v6 (((cfg0.win 4).blk t).view.emb (ix2 z j)) = _
  rw [← beta_at m c z (col (t.val % 8) j)]
  refine congrArg (V m c main_v6) (funext fun a => Fin.ext ?_)
  match a with
  | ⟨0, _⟩ =>
    show win0_4.index t (0 : Fin 2) * 1 + 1 * z.val = z.val
    rw [e0]; omega
  | ⟨1, _⟩ =>
    show win0_4.index t (1 : Fin 2) * 512 + 1 * j.val = (col (t.val % 8) j).val
    rw [e1, col_val _ (by omega)]; omega

/-- The weights at point t. -/
theorem wblk_apply (c : Dev nD) (t : Fin cfg0.N) (z : Fin 1) (j : Fin 512) :
    wblk m c t (ix2 z j) = wArr m c (ix2 0 (col (t.val % 8) j)) := by
  have hN := t_lt t
  obtain ⟨-, -, -, -, -, -, -, -, -, -, e0, e1, -⟩ := idx_facts t
  show ((cfg0.win 5).blk t).view.read (Elt Ideal) (V m c (Pipeline.arrRef spec0 5)) (ix2 z j) = _
  rw [View.read_apply]
  show V m c main_arg3 (((cfg0.win 5).blk t).view.emb (ix2 z j)) = _
  rw [V_main_arg3]
  refine congrArg (m ((c : Thread nD τ).loc main_arg3)) (funext fun a => Fin.ext ?_)
  match a with
  | ⟨0, _⟩ =>
    show win0_5.index t (0 : Fin 2) * 1 + 1 * z.val = 0
    rw [e0]; omega
  | ⟨1, _⟩ =>
    show win0_5.index t (1 : Fin 2) * 512 + 1 * j.val = (col (t.val % 8) j).val
    rw [e1, col_val _ (by omega)]; omega

end Cert.KernelIdeal.Blocks

end
-- ==== Proof.Accum.lean ====
/-
  The carried column, grid point by grid point.

  Point t is batch tile t / 8 and centre tile t % 8. After the body at point t the carried (1024, 1) column holds,
  at row r, the sum over the centre tiles 0 .. t % 8 of that tile's partial sum for batch row (t / 8, r):
      column_t r = sum over k <= t % 8 of (sum over the 512 centres j of tile k of T (row (t/8) r) (col k j)),
  T b k the weighted response of centre k to batch row b. At a tile's first point the column restarts from zero, at
  every other point it grows by one tile. At the last centre tile (t % 8 = 7) the output block is that column, which
  by then is the sum over all 4096 centres.
-/
import proofs.«113046_j11081015623693_1_alg».proof.Proof.Pieces
import proofs.«113046_j11081015623693_1_alg».proof.Proof.Payload
import proofs.«113046_j11081015623693_1_alg».proof.Proof.Blocks

noncomputable section

namespace Cert.KernelIdeal.Accum

open Cert.KernelIdeal Cert.KernelIdeal.Gen Cert.KernelIdeal.Pieces Cert.KernelIdeal.Payload Cert.KernelIdeal.Blocks
open Idealize.ShloMosaic Idealize.ShloMosaic.TcCoe Idealize.SL.Sem Idealize.ShloMosaic.ValueIdx Cert.RbfSpec

variable (m : (ℓ : Loc nD τ sig) → Buf (Elt Ideal) ℓ)

/-- Centre k's weighted response to batch row b, over the argument arrays. -/
abbrev T (c : Dev nD) (b k : Fin 4096) : EReal := term (xArr m c) (cenArr m c) (betaArr m c) (wArr m c) b k

/-- The (1024, 512) product block the body forms at point t. -/
abbrev prodBlk (c : Dev nD) (t : Fin cfg0.N) : FVec Ideal S1024x512 .f32 :=
  k0_pay3 (F := Ideal) (xblk m c t) (cblk m c t) (x2blk m c t) (c2blk m c t) (bblk m c t) (wblk m c t)

/-- At (r, j) it is the response of centre (t % 8, j) to batch row (t / 8, r). -/
theorem prodBlk_apply (c : Dev nD) (t : Fin cfg0.N) (r : Fin 1024) (j : Fin 512) :
    prodBlk m c t (ix2 r j) = T m c (row (t.val / 8) r) (col (t.val % 8) j) := by
  refine (pay3_apply (xblk m c t) (cblk m c t) (x2blk m c t) (c2blk m c t) (bblk m c t) (wblk m c t) r j).trans ?_
  rw [x2blk_apply, c2blk_apply, bblk_apply, wblk_apply]
  have hs : (∑ d : Fin 1024, xblk m c t (ix2 r d) * cblk m c t (ix2 j d))
      = rowDot (xArr m c) (cenArr m c) (row (t.val / 8) r) (col (t.val % 8) j) := by
    show _ = ∑ d : Fin 1024, xArr m c (ix2 (row (t.val / 8) r) d) * cenArr m c (ix2 (col (t.val % 8) j) d)
    exact Finset.sum_congr rfl fun d _ => by rw [xblk_apply, cblk_apply]
  rw [hs]
  rfl

/-! ## The three control cases at a point -/

/-- At a batch tile's first point the column restarts from the zero column. -/
theorem acc_first (c : Dev nD) (t : Fin cfg0.N) (h0 : t.val % 8 = 0) :
    (outsAt0 m c t.val t.isLt).2 = k0_pay1 (F := Ideal) (prodBlk m c t) (k0_pay2 (F := Ideal)) := by
  have h1 : ¬t.val % 8 = 7 := by omega
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (xblk m c t) (cblk m c t) (x2blk m c t) (c2blk m c t) (bblk m c t) (wblk m c t)

/-- At every other point it grows by the point's partial sums. -/
theorem acc_next (c : Dev nD) (t : Fin cfg0.N) (h0 : ¬t.val % 8 = 0) :
    (outsAt0 m c t.val t.isLt).2 = k0_pay1 (F := Ideal) (prodBlk m c t) (outsAt0 m c (t.val - 1) (Nat.lt_of_le_of_lt (Nat.sub_le _ _) t.isLt)).2 := by
  by_cases h1 : t.val % 8 = 7
  · rw [outsAt0_C m c t h0 h1]
    dsimp only
    exact scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (xblk m c t) (cblk m c t) (x2blk m c t) (c2blk m c t) (bblk m c t) (wblk m c t) (outsAt0 m c (t.val - 1) (Nat.lt_of_le_of_lt (Nat.sub_le _ _) t.isLt)).2
  · rw [outsAt0_B m c t h0 h1]
    dsimp only
    exact scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (xblk m c t) (cblk m c t) (x2blk m c t) (c2blk m c t) (bblk m c t) (wblk m c t) (outsAt0 m c (t.val - 1) (Nat.lt_of_le_of_lt (Nat.sub_le _ _) t.isLt)).2

/-- At a batch tile's last point the output block is the column. -/
theorem out_last (c : Dev nD) (t : Fin cfg0.N) (h1 : t.val % 8 = 7) :
    (outsAt0 m c t.val t.isLt).1 = (outsAt0 m c t.val t.isLt).2 := by
  have h0 : ¬t.val % 8 = 0 := by omega
  rw [outsAt0_C m c t h0 h1]
  dsimp only
  exact (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (xblk m c t) (cblk m c t) (x2blk m c t) (c2blk m c t) (bblk m c t) (wblk m c t) (outsAt0 m c (t.val - 1) (Nat.lt_of_le_of_lt (Nat.sub_le _ _) t.isLt)).2).trans
    (scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (xblk m c t) (cblk m c t) (x2blk m c t) (c2blk m c t) (bblk m c t) (wblk m c t) (outsAt0 m c (t.val - 1) (Nat.lt_of_le_of_lt (Nat.sub_le _ _) t.isLt)).2).symm

/-! ## The column's value -/

/-- Centre tile k's partial sum for batch row (i, r). -/
def blockSum (c : Dev nD) (i : ℕ) (r : Fin 1024) (k : ℕ) : EReal := ∑ j : Fin 512, T m c (row i r) (col k j)

/-- One update: the column's previous value plus the point's tile. -/
theorem step_apply (c : Dev nD) (t : Fin cfg0.N) (acc : Vec Ideal S1024x1 .f32) (r : Fin 1024) (z : Fin 1) :
    k0_pay1 (F := Ideal) (prodBlk m c t) acc (ix2 r z) = acc (ix2 r z) + blockSum m c (t.val / 8) r (t.val % 8) := by
  rw [pay1_apply]
  exact congrArg (acc (ix2 r z) + ·) (Finset.sum_congr rfl fun j _ => prodBlk_apply m c t r j)

/-- THE COLUMN after point n: the tiles 0 .. n % 8 of batch tile n / 8, summed. -/
theorem acc_eq (c : Dev nD) : ∀ (n : ℕ) (hn : n < cfg0.N) (r : Fin 1024) (z : Fin 1),
    (outsAt0 m c n hn).2 (ix2 r z) = ∑ k ∈ Finset.range (n % 8 + 1), blockSum m c (n / 8) r k := by
  intro n
  induction n with
  | zero =>
    intro hn r z
    refine (congrFun (acc_first m c ⟨0, hn⟩ (Nat.zero_mod 8)) (ix2 r z)).trans ?_
    rw [step_apply, pay2_apply, Ideal.ofBits_zero_f32, zero_add]
    show blockSum m c (0 / 8) r (0 % 8) = ∑ k ∈ Finset.range (0 % 8 + 1), blockSum m c (0 / 8) r k
    simp
  | succ n ih =>
    intro hn r z
    have hN : n + 1 < 32 := lt_of_lt_of_eq hn (show cfg0.N = 32 from N_0)
    by_cases h0 : (n + 1) % 8 = 0
    · refine (congrFun (acc_first m c ⟨n + 1, hn⟩ h0) (ix2 r z)).trans ?_
      rw [step_apply, pay2_apply, Ideal.ofBits_zero_f32, zero_add]
      show blockSum m c ((n + 1) / 8) r ((n + 1) % 8) = ∑ k ∈ Finset.range ((n + 1) % 8 + 1), blockSum m c ((n + 1) / 8) r k
      rw [h0]
      simp
    · refine (congrFun (acc_next m c ⟨n + 1, hn⟩ h0) (ix2 r z)).trans ?_
      rw [step_apply]
      show (outsAt0 m c n (Nat.lt_of_succ_lt hn)).2 (ix2 r z) + blockSum m c ((n + 1) / 8) r ((n + 1) % 8) = _
      rw [ih (Nat.lt_of_succ_lt hn) r z]
      have e1 : (n + 1) / 8 = n / 8 := by omega
      have e2 : (n + 1) % 8 = n % 8 + 1 := by omega
      rw [e1, e2, Finset.sum_range_succ _ (n % 8 + 1)]

/-- THE OUTPUT BLOCK at a batch tile's last point: at row r, the sum over all 4096 centres. -/
theorem out_value (c : Dev nD) (t : Fin cfg0.N) (h1 : t.val % 8 = 7) (r : Fin 1024) (z : Fin 1) :
    (outsAt0 m c t.val t.isLt).1 (ix2 r z) = ∑ k : Fin 4096, T m c (row (t.val / 8) r) k := by
  rw [out_last m c t h1, acc_eq m c t.val t.isLt r z, h1]
  exact sum_blocks (fun k => T m c (row (t.val / 8) r) k)

end Cert.KernelIdeal.Accum

end
-- ==== Proof.KernelValue.lean ====
/-
  The kernel program's result array.

  The call's result array is written back one batch tile at a time, at the tile's last centre tile: the block written
  is the carried column, which there holds the sum over all 4096 centres. The four blocks tile the (4096, 1) array, so
  after the call it holds at every batch row b the sum over the centres of their weighted responses to row b. The three
  host operations after the call add the bias, broadcast to a column: the program's result is the specification's G
  of the argument arrays.
-/
import proofs.«113046_j11081015623693_1_alg».proof.Proof.Accum
import Idealize.ShloMosaic.Lib.StableHlo.Run

noncomputable section

namespace Cert.KernelIdeal.KernelValue

open Cert.KernelIdeal Cert.KernelIdeal.Gen Cert.KernelIdeal.Blocks Cert.KernelIdeal.Accum
open Idealize.ShloMosaic Idealize.ShloMosaic.TcCoe Idealize.SL.Sem Idealize.ShloMosaic.ValueIdx Cert.RbfSpec
open Idealize.ShloMosaic.StableHlo
open Idealize.ShloMosaic.Pipeline (Dat)

variable (m : (ℓ : Loc nD τ sig) → Buf (Elt Ideal) ℓ) (ρ : Dev nD → PrngReg)

/-- The call's result array: at batch row b, the sum over all centres of their weighted responses. -/
def callOut (c : Dev nD) : FVec Ideal S4096x1 .f32 := fun i => ∑ k : Fin 4096, T m c ⟨(i 0).val, idx2_lt0 i⟩ k

theorem callOut_ix2 (c : Dev nD) (b : Fin 4096) (z : Fin 1) : callOut m c (ix2 b z) = ∑ k : Fin 4096, T m c b k := rfl

/-- What a batch tile's last point writes back is that tile's block of the result. -/
theorem flushed_eq (c : Dev nD) (t : Fin cfg0.N) (hf : (cfg0.win 6).flush t = true) :
    (dats m 0 c).flushed 6 t = ((cfg0.win 6).blk t).view.read (Elt Ideal) (callOut m c) := by
  have h7 : t.val % 8 = 7 := (flush0_6 t).mp hf
  have hN := t_lt t
  obtain ⟨-, -, -, -, -, -, -, -, -, -, -, -, e0, e1⟩ := idx_facts t
  show (cfg0.win 6).cut (grid0.coords t) ((dats m 0 c).after 6 t) = _
  rw [after0_6]
  show (fun y : S1024x1.Idx => (outsAt0 m c t.val t.isLt).1 y)
    = fun y : S1024x1.Idx => callOut m c (((cfg0.win 6).blk t).view.emb y)
  funext y
  obtain ⟨r, z, rfl⟩ : ∃ (r : Fin 1024) (z : Fin 1), y = ix2 r z := ⟨y 0, y 1, eq_ix2 y⟩
  have e : ((cfg0.win 6).blk t).view.emb (ix2 r z) = ix2 (row (t.val / 8) r) z := by
    funext a; apply Fin.ext
    match a with
    | ⟨0, _⟩ =>
      show win0_6.index t (0 : Fin 2) * 1024 + 1 * r.val = (row (t.val / 8) r).val
      rw [e0, row_val _ (by omega)]; omega
    | ⟨1, _⟩ =>
      show win0_6.index t (1 : Fin 2) * 1 + 1 * z.val = z.val
      rw [e1]; omega
  show (outsAt0 m c t.val t.isLt).1 (ix2 r z) = callOut m c (((cfg0.win 6).blk t).view.emb (ix2 r z))
  rw [e, out_value m c t h7 r z]
  rfl

/-- An index of the result array is in point t's block iff each coordinate is in the block's range on its axis. -/
theorem mem_blk (t : Fin cfg0.N) (i : S4096x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v7).slice (win0_6.rect t)).set ↔ _
  rw [View.set_slice_whole, Rect.mem_set_unit]
  exact Iff.rfl

/-- Every batch row lies in the block its batch tile's last point writes back. -/
theorem cover (i : S4096x1.Idx) :
    ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 32 := N_0
  obtain ⟨t, ht⟩ : ∃ t : Fin cfg0.N, t.val = 8 * ((i 0).val / 1024) + 7 := ⟨⟨8 * ((i 0).val / 1024) + 7, by rw [hN]; omega⟩, rfl⟩
  obtain ⟨-, -, -, -, -, -, -, -, -, -, -, -, e0, e1⟩ := idx_facts t
  refine ⟨t, (flush0_6 t).mpr (by omega), ?_⟩
  rw [mem_blk]
  intro a
  match a with
  | ⟨0, _⟩ =>
    show win0_6.index t (0 : Fin 2) * 1024 ≤ (i 0).val ∧ (i 0).val < win0_6.index t (0 : Fin 2) * 1024 + 1024
    rw [e0]; omega
  | ⟨1, _⟩ =>
    show win0_6.index t (1 : Fin 2) * 1 ≤ (i 1).val ∧ (i 1).val < win0_6.index t (1 : Fin 2) * 1 + 1
    rw [e1]; omega

/-- So after the call its result array holds the sums over all centres. -/
theorem final (c : Dev nD) : (dats m 0 c).arrAt 6 cfg0.N = callOut m c :=
  (dats m 0 c).arrAt_eq_of_cover 6 (callOut m c) (fun t hf => flushed_eq m c t hf) (cover)

/-- The bias, broadcast to a column. -/
abbrev biasCol (c : Dev nD) : FVec Ideal S4096x1 .f32 :=
  broadcastInDim S4096x1 ![0, 1] bcast_S1x1_S4096x1_0_1 (broadcastInDim S1x1 ![1] bcast_S1_S1x1_1 (biasArr m c))

theorem biasCol_apply (c : Dev nD) (i : S4096x1.Idx) : biasCol m c i = biasArr m c (ix1 0) := by
  refine (broadcastInDim_apply _ bcast_S1x1_S4096x1_0_1 _ i (ix2 (0 : Fin 1) (0 : Fin 1)) (fun a => match a with
    | ⟨0, _⟩ => by show 0 = if (1 : Nat) = 1 then 0 else (i 0).val; rw [if_pos rfl]
    | ⟨1, _⟩ => by show 0 = if (1 : Nat) = 1 then 0 else (i 1).val; rw [if_pos rfl])).trans ?_
  exact broadcastInDim_apply _ bcast_S1_S1x1_1 _ (ix2 (0 : Fin 1) (0 : Fin 1)) (ix1 (0 : Fin 1)) (fun a => match a with
    | ⟨0, _⟩ => by show 0 = if (1 : Nat) = 1 then 0 else 0; rw [if_pos rfl])

/-- The program's result: the call's result plus the bias column. -/
theorem tail_out (c : Dev nD) :
    Pipeline.afterTail₀ cfgs (dats m) 0 (V0 m) [hostOps1] c main_v10 = addf (callOut m c) (biasCol m c) := by
  unfold Pipeline.afterTail₀
  show StableHlo.after hostOps1 _ (Proc.devRef .tc main_v10) = _
  after_results
  refine congrArg₂ addf ?_ (congrArg _ (congrArg _ ?_))
  · exact (Pipeline.withArrays_arr spec0 launch0.win.arr_inj c _ _ 6).trans (final m c)
  · exact (Pipeline.withArrays_of_ne _ c (V0 m c) _ main_arg4 (by exact (by decide : ∀ w, Pipeline.arrRef spec0 w ≠ main_arg4))).trans
      (V_main_arg4 m c)

/-- It is the specification's G of the argument arrays. -/
theorem out_eq (c : Dev nD) :
    addf (callOut m c) (biasCol m c) = G (xArr m c) (cenArr m c) (betaArr m c) (wArr m c) (biasArr m c) := by
  funext i
  obtain ⟨b, z, rfl⟩ : ∃ (b : Fin 4096) (z : Fin 1), i = ix2 b z := ⟨i 0, i 1, eq_ix2 i⟩
  rw [G_ix2]
  unfold rowOut
  show callOut m c (ix2 b z) + biasCol m c (ix2 b z) = _
  rw [biasCol_apply, callOut_ix2]

/-- THE RUN, READ: the program's result at G of its arguments, the arguments unchanged. -/
theorem run : θ_run defs (onTc (τ := τ) (main (F := Ideal))) ⟨m, fun _ => 0, ρ⟩ fun r => ∀ c : Dev nD,
      r.2.mem ((c.tc : Thread nD τ).loc main_v10) = G (xArr m c) (cenArr m c) (betaArr m c) (wArr m c) (biasArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v10 (Pipeline.mem_restRefs_of main_v10 (by decide) (by decide))).trans (tail_out m c)).trans (out_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 5).trans (((dats m 0 c).arrAt_in 5 rfl _).trans ((A_eq m c 5).trans (V_main_arg3 m c))),
      ((h c).2 main_arg4 (Pipeline.mem_restRefs_of main_arg4 (by decide) (by decide))).trans (W_main_arg4 m (dats m) c)⟩)
    (run_main m ρ)

end Cert.KernelIdeal.KernelValue

end
-- ==== Proof.RefValue.lean ====
/-
  The reference's result, read index by index.

  Its forty host operations compute, at batch row b and centre c, the squared distance
  (x2_b + c2_c) - 2 <x_b, c_c> from the two rows' squared norms and their inner product, its clamped square
  root, the damped response exp ((-beta_c) * distance) with an infinite value replaced by zero, and then, per
  batch row, the sum over the 4096 centres of response times weight, plus the bias. That is the specification's
  row output: every stage below is the stage of the specification with the same name.
-/
import proofs.«113046_j11081015623693_1_alg».proof.Proof.Gen.ReferenceIdeal.Run
import proofs.«113046_j11081015623693_1_alg».proof.Proof.Gen.ReferenceIdeal.Read
import proofs.«113046_j11081015623693_1_alg».proof.Proof.Spec

noncomputable section

namespace Cert.ReferenceIdeal.RefValue

open Cert.ReferenceIdeal Cert.ReferenceIdeal.Read Idealize.ShloMosaic Idealize.ShloMosaic.ValueIdx Cert.RbfSpec

variable (x cen : FVec Ideal S4096x1024 .f32) (beta : FVec Ideal S4096 .f32) (W : FVec Ideal S1x4096 .f32)
  (bias : FVec Ideal S1 .f32)

/-- a row's squared norm, as the reference's reduce computes it. -/
theorem sqnorm_x (b : Fin 4096) : val_main_v1 (F := Ideal) x (ix1 b) = sqn x b := by
  rw [val_main_v1_apply]
  unfold sqn
  refine congrArg (_ + ·) (Finset.sum_congr rfl fun d _ => ?_)
  have e : idx_main_v1 (ix1 b) d = ix2 b d := funext fun a => Fin.ext (by match a with | ⟨0, _⟩ => rfl | ⟨1, _⟩ => rfl)
  rw [e]
  rfl

theorem sqnorm_c (c : Fin 4096) : val_main_v4 (F := Ideal) cen (ix1 c) = sqn cen c := by
  rw [val_main_v4_apply]
  unfold sqn
  refine congrArg (_ + ·) (Finset.sum_congr rfl fun d _ => ?_)
  have e : idx_main_v4 (ix1 c) d = ix2 c d := funext fun a => Fin.ext (by match a with | ⟨0, _⟩ => rfl | ⟨1, _⟩ => rfl)
  rw [e]
  rfl

/-- the sum of the two squared norms, broadcast over the (batch, centre) grid. -/
theorem norms_sum (b c : Fin 4096) : val_main_v8 (F := Ideal) x cen (ix2 b c) = sqn x b + sqn cen c := by
  rw [val_main_v8_apply, val_main_v6_apply, val_main_v2_apply, val_main_v7_apply, val_main_v5_apply]
  have e1 : idx_main_v2 (idx_main_v6 (ix2 b c)) = ix1 b := funext fun a => Fin.ext (by match a with | ⟨0, _⟩ => rfl)
  have e2 : idx_main_v5 (idx_main_v7 (ix2 b c)) = ix1 c := funext fun a => Fin.ext (by match a with | ⟨0, _⟩ => rfl)
  rw [e1, e2, sqnorm_x, sqnorm_c]
  rfl

/-- the matrix product x centres^T at (b, c) is the inner product of the two rows. -/
theorem cross (b c : Fin 4096) : val_main_v10 (F := Ideal) x cen (ix2 b c) = rowDot x cen b c := by
  rw [val_main_v10_apply]
  unfold rowDot
  refine Finset.sum_congr rfl fun d _ => ?_
  rw [val_main_v9_apply]
  have e1 : lidx_main_v10 (ix2 b c) d = ix2 b d := funext fun a => Fin.ext (by match a with | ⟨0, _⟩ => rfl | ⟨1, _⟩ => rfl)
  have e2 : idx_main_v9 (ridx_main_v10 (ix2 b c) d) = ix2 c d :=
    funext fun a => Fin.ext (by match a with | ⟨0, _⟩ => rfl | ⟨1, _⟩ => rfl)
  rw [e1, e2]

/-- the damped response before the infinity test. -/
theorem damped (b c : Fin 4096) :
    val_main_v21 (F := Ideal) x cen beta (ix2 b c) = damp (sqn x b) (sqn cen c) (rowDot x cen b c) (beta (ix1 c)) := by
  rw [val_main_v21_apply, val_main_v20_apply, val_main_v19_apply, val_main_v18_apply, val_main_v17_apply,
    val_main_v16_apply, val_main_v15_apply, val_main_v13_apply, val_main_v12_apply, val_main_v11_apply,
    val_main_v14_apply, norms_sum, cross]
  have e : idx_main_v17 (idx_main_v19 (ix2 b c)) = ix1 c := funext fun a => Fin.ext (by match a with | ⟨0, _⟩ => rfl)
  rw [e, ← damp_neg]
  rfl

/-- the response with an infinite value replaced by zero. -/
theorem kept (b c : Fin 4096) :
    val_main_v23 (F := Ideal) x cen beta (ix2 b c)
      = keepFinite (damp (sqn x b) (sqn cen c) (rowDot x cen b c) (beta (ix1 c))) := by
  rw [val_main_v23_apply, val_main_v22_apply, val_main_call0_v0_apply, val_main_call0_v1_apply, val_main_call1_v1_apply,
    damped]
  rfl

/-- the weight column: the transposed weight row. -/
theorem weight (c : Fin 4096) (z : Fin 1) : val_main_v24 (F := Ideal) W (ix2 c z) = W (ix2 0 c) := by
  rw [val_main_v24_apply]
  refine congrArg W (funext fun a => Fin.ext ?_)
  match a with
  | ⟨0, _⟩ => show z.val = 0; omega
  | ⟨1, _⟩ => rfl

/-- THE REFERENCE IS THE SPECIFICATION: its result array is the row output at every batch row. -/
theorem result_eq : val_main_v28 (F := Ideal) x cen beta W bias = G x cen beta W bias := by
  funext i
  obtain ⟨b, z, rfl⟩ : ∃ (b : Fin 4096) (z : Fin 1), i = ix2 b z := ⟨i 0, i 1, eq_ix2 i⟩
  rw [G_ix2, val_main_v28_apply, val_main_v25_apply, val_main_v27_apply, val_main_v26_apply]
  unfold rowOut
  refine congrArg₂ (· + ·) (Finset.sum_congr rfl fun c _ => ?_) ?_
  · have e1 : lidx_main_v25 (ix2 b z) c = ix2 b c := funext fun a => Fin.ext (by match a with | ⟨0, _⟩ => rfl | ⟨1, _⟩ => rfl)
    have e2 : ridx_main_v25 (ix2 b z) c = ix2 c z := funext fun a => Fin.ext (by match a with | ⟨0, _⟩ => rfl | ⟨1, _⟩ => rfl)
    rw [e1, e2, kept, weight]
    rfl
  · refine congrArg bias (funext fun a => Fin.ext ?_)
    match a with
    | ⟨0, _⟩ => rfl

end Cert.ReferenceIdeal.RefValue

end
-- ==== Proof.lean ====
/-
  A radial-basis-function network's forward pass, as a tiled kernel, against its plain description.

  For batch rows x_b, centres c_k, rates beta_k, weights w_k and a bias, both programs compute
      out_b = (sum over the 4096 centres k of  keepFinite (exp (-(beta_k) * sqrt (max (|x_b|^2 + |c_k|^2 - 2 <x_b, c_k>, 0)))) * w_k) + bias,
  keepFinite replacing an infinite value by zero. The squared norms are row sums of squares taken from the zero.

  The reference forms the whole (4096, 4096) matrix of responses and contracts it with the weights in one matrix product.
  The kernel walks a grid of 4 batch tiles by 8 centre tiles: per point it forms the (1024, 512) block of weighted
  responses (the inner products by a matrix product of the row block with the transposed centre block, both first
  converted to bf16, which is the identity on the extended reals), sums the block over its 512 centres, and adds
  the partial sums to a column carried from point to point, restarted at each batch tile's first point and written out
  at its last; the bias is added after the call. The kernel writes the negation as 0 - beta, the reference as a
  negation: the same extended real. So the only difference is the grouping of the sum over the centres, eight blocks of
  512 added one after the other against one sum of 4096 terms, and addition of extended reals is commutative and
  associative: the two results are equal at every input, finite or not. The precondition is not used.

  Spec.lean states the function and the regrouping law; RefValue.lean reads the reference's operations at an index;
  Pieces.lean, Payload.lean, Blocks.lean and Accum.lean read the kernel body, its blocks and the carried column;
  KernelValue.lean reads the result array after the call and the host operations behind it.
-/
import proofs.«113046_j11081015623693_1_alg».proof.Defs
import proofs.«113046_j11081015623693_1_alg».proof.Proof.Gen.Kernel
import proofs.«113046_j11081015623693_1_alg».proof.Proof.Gen.Kernel.Skeleton
import proofs.«113046_j11081015623693_1_alg».proof.Proof.Gen.Kernel.Launch
import proofs.«113046_j11081015623693_1_alg».proof.Proof.Gen.Kernel.Points
import proofs.«113046_j11081015623693_1_alg».proof.Proof.Gen.Kernel.Frame
import proofs.«113046_j11081015623693_1_alg».proof.Proof.Gen.KernelIdeal
import proofs.«113046_j11081015623693_1_alg».proof.Proof.Gen.KernelIdeal.Skeleton
import proofs.«113046_j11081015623693_1_alg».proof.Proof.Gen.KernelIdeal.Launch
import proofs.«113046_j11081015623693_1_alg».proof.Proof.Gen.KernelIdeal.Points
import proofs.«113046_j11081015623693_1_alg».proof.Proof.Gen.KernelIdeal.Frame
import proofs.«113046_j11081015623693_1_alg».proof.Proof.Gen.ReferenceIdeal
import proofs.«113046_j11081015623693_1_alg».proof.Proof.Gen.Pre_finite_inputs
import proofs.«113046_j11081015623693_1_alg».proof.Proof.KernelValue
import proofs.«113046_j11081015623693_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end with the specification's G of the arguments: the kernel by the carried
    column's eight blocks, the reference by its one sum over the centres. -/
theorem algebraic : Cert.algebraic_KernelIdeal_ReferenceIdeal := by
  intro m ρ m' ρ' _ hagree
  refine ⟨fun c => Cert.RbfSpec.G (Cert.KernelIdeal.Blocks.xArr m c) (Cert.KernelIdeal.Blocks.cenArr m c)
      (Cert.KernelIdeal.Blocks.betaArr m c) (Cert.KernelIdeal.Blocks.wArr m c) (Cert.KernelIdeal.Blocks.biasArr m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v28_eq, Cert.ReferenceIdeal.RefValue.result_eq, h0, h1, h2, h3, h4]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
